-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x32768 : Shape := ⟨3, ![4, 2048, 32768]⟩
abbrev S_ : Shape := ⟨0, ![]⟩

class Facts : Prop where
  bcast_S_S4x2048x32768 : S_.BroadcastsInDim S4x2048x32768 (![] : Fin 0 → Fin S4x2048x32768.rank)
  reducesTo_S4x2048x32768_S_d0_1_2 : S4x2048x32768.ReducesTo [0, 1, 2] S_
  h_S_ : 0 < S_.numel

variable [Facts]

def fn {F : FTy → Type} [FloatOps F] (main_arg0 : FVec F S4x2048x32768 .f32) : IVec S_ 1 :=
  let main_v0 : FVec F S4x2048x32768 .f32 := Host.absf main_arg0
  let main_cst : FVec F S_ .f32 := constant S_ .f32 0x7F800000#32
  let main_v1 : FVec F S4x2048x32768 .f32 := broadcastInDim S4x2048x32768 ![] bcast_S_S4x2048x32768 main_cst
  let main_v2 : IVec S4x2048x32768 1 := cmpf .olt main_v0 main_v1
  let main_c : IVec S_ 1 := constantI S_ 1 1#1
  let main_v3 : IVec S_ 1 := (fun x v => Host.reduce IntOp.andi x v reducesTo_S4x2048x32768_S_d0_1_2 h_S_) main_v2 main_c
  main_v3
-- ==== Kernel.lean ====
abbrev S4x2048x32768 : Shape := ⟨3, ![4, 2048, 32768]⟩
abbrev S8192x32768 : Shape := ⟨2, ![8192, 32768]⟩
abbrev S8192x16384 : Shape := ⟨2, ![8192, 16384]⟩
abbrev S512x2048 : Shape := ⟨2, ![512, 2048]⟩
abbrev S4x2048x16384 : Shape := ⟨3, ![4, 2048, 16384]⟩

abbrev nBuf : Space → Nat
  | .hbm => 4
  | .vmem => 6
  | .smem => 0
  | _ => 0

abbrev bufTy : (tb : Table) → Fin (tcTables nBuf tb) → BufTy
  | .hbm, ⟨0, _⟩ => ⟨S4x2048x32768, .f32⟩
  | .hbm, ⟨1, _⟩ => ⟨S8192x32768, .f32⟩
  | .hbm, ⟨2, _⟩ => ⟨S8192x16384, .f32⟩
  | .hbm, ⟨3, _⟩ => ⟨S4x2048x16384, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S4x2048x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4x2048x32768_S8192x32768 : S4x2048x32768.ShapeCasts S8192x32768
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S8192x16384_S4x2048x16384 : S8192x16384.ShapeCasts S4x2048x16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x32768.size a
  hwx0_0 : ∀ i : grid0.Coords, EltTy.bits .f32 = 32 ∨ (Rect.block (s := S8192x32768) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x32768.size a
  hwx0_1 : ∀ i : grid0.Coords, EltTy.bits .f32 = 32 ∨ (Rect.block (s := S8192x32768) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x16384.size a
  hwx0_2 : ∀ i : grid0.Coords, EltTy.bits .f32 = 32 ∨ (Rect.block (s := S8192x16384) S512x2048.size (cc0_transform_2 i) (hinb0_2 i)).WholeWords (EltTy.packing .f32)

variable [Facts₀]

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x32768 : Shape := ⟨3, ![4, 2048, 32768]⟩
abbrev S4x2048x16384 : Shape := ⟨3, ![4, 2048, 16384]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x32768, .f32⟩
  | .hbm, ⟨1, _⟩ => ⟨S4x2048x16384, .f32⟩
  | .hbm, ⟨2, _⟩ => ⟨S4x2048x16384, .f32⟩
  | .hbm, ⟨3, _⟩ => ⟨S4x2048x16384, .f32⟩
  | .hbm, ⟨4, _⟩ => ⟨S4x2048x16384, .f32⟩
  | .hbm, ⟨5, _⟩ => ⟨S_, .f32⟩
  | .hbm, ⟨6, _⟩ => ⟨S4x2048x16384, .f32⟩
  | .hbm, ⟨7, _⟩ => ⟨S4x2048x16384, .f32⟩
  | .hbm, ⟨8, _⟩ => ⟨S_, .f32⟩
  | .hbm, ⟨9, _⟩ => ⟨S4x2048x16384, .f32⟩
  | .hbm, ⟨10, _⟩ => ⟨S4x2048x16384, .f32⟩
  | .hbm, ⟨11, _⟩ => ⟨S4x2048x16384, .f32⟩
  | .hbm, ⟨12, _⟩ => ⟨S4x2048x16384, .f32⟩
  | _, _ => ⟨S4x2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩

abbrev nD : Nat := 1
abbrev τ : Topo := Topo.v7x

variable {F : FTy → Type} [FloatOps F]

class Facts₀ : Prop where
  slices_S4x2048x32768_S4x2048x16384_0_0_0 : S4x2048x32768.Slices ![0, 0, 0] S4x2048x16384
  slices_S4x2048x32768_S4x2048x16384_0_0_16384 : S4x2048x32768.Slices ![0, 0, 16384] S4x2048x16384
  bcast_S_S4x2048x16384 : S_.BroadcastsInDim S4x2048x16384 (![] : Fin 0 → Fin S4x2048x16384.rank)

variable [Facts₀]

class Facts : Prop extends Facts₀ where

variable [Facts]
-- ==== Proof.Spec.lean ====
/-
  The function both programs compute, stated once over literal shapes.

  The input is a float array x of shape [4, 2048, 32768]; its last axis is two halves of 16384 columns, the
  "gate" half g = x[..., j] and the "up" half u = x[..., j + 16384].  The result, of shape [4, 2048, 16384], is
  (g · logistic g) · u entry by entry.  The kernel computes it on the matrix view [8192, 32768] of x (row
  r = 2048·b + s), so the same function is also stated on that view (`rows`), and the two are tied together by
  the row-major reshapes (`reshape_rows_reshape`): a reshape keeps an entry's row-major position, and
  2048·b + s is the row of (b, s) while the column is unchanged.
  Everything here holds at every float instance: no arithmetic law is used, only where entries sit.
-/
import Idealize.ShloMosaic.PureOps.Ideal
import Idealize.ShloMosaic.Lib.ValueIdx
import Idealize.ShloMosaic.Lib.Pipeline.Value

noncomputable section

namespace Cert.SiluMul

open Idealize.ShloMosaic Idealize.ShloMosaic.ValueIdx

abbrev S3in : Shape := ⟨3, ![4, 2048, 32768]⟩
abbrev S2in : Shape := ⟨2, ![8192, 32768]⟩
abbrev S2out : Shape := ⟨2, ![8192, 16384]⟩
abbrev S3out : Shape := ⟨3, ![4, 2048, 16384]⟩

variable {F : FTy → Type} [FloatOps F]

/-- Column j of the gate half. -/
def gateCol (j : Fin 16384) : Fin 32768 := ⟨j.val, by omega⟩
/-- Column j of the up half: 16384 columns further right. -/
def upCol (j : Fin 16384) : Fin 32768 := ⟨j.val + 16384, by omega⟩

@[simp] theorem gateCol_val (j : Fin 16384) : (gateCol j).val = j.val := rfl
@[simp] theorem upCol_val (j : Fin 16384) : (upCol j).val = j.val + 16384 := rfl

/-- One entry: (g · logistic g) · u. -/
def silu1 (g u : F .f32) : F .f32 := FloatOps.mulf (FloatOps.mulf g (FloatOps.logistic g)) u

/-- Entry (r, j) of the result on the matrix view. -/
def cell2 (y : FVec F S2in .f32) (r : Fin 8192) (j : Fin 16384) : F .f32 :=
  silu1 (y (ix2 r (gateCol j))) (y (ix2 r (upCol j)))

/-- The result on the matrix view [8192, 32768] → [8192, 16384]. -/
def rows (y : FVec F S2in .f32) : FVec F S2out .f32 := fun i => cell2 y (i 0) (i 1)

theorem rows_apply (y : FVec F S2in .f32) (r : Fin 8192) (j : Fin 16384) : rows y (ix2 r j) = cell2 y r j := rfl

/-- Entry (b, s, j) of the result. -/
def cell3 (x : FVec F S3in .f32) (b : Fin 4) (s : Fin 2048) (j : Fin 16384) : F .f32 :=
  silu1 (x (ix3 b s (gateCol j))) (x (ix3 b s (upCol j)))

/-- The result [4, 2048, 32768] → [4, 2048, 16384]. -/
def out3 (x : FVec F S3in .f32) : FVec F S3out .f32 := fun i => cell3 x (i 0) (i 1) (i 2)

theorem out3_apply (x : FVec F S3in .f32) (b : Fin 4) (s : Fin 2048) (j : Fin 16384) :
    out3 x (ix3 b s j) = cell3 x b s j := rfl

/-- The row of the matrix view that holds (b, s). -/
def rowOf (b : Fin 4) (s : Fin 2048) : Fin 8192 := ⟨2048 * b.val + s.val, by omega⟩

/-- The matrix view of x read at (2048·b + s, k) is x at (b, s, k). -/
theorem reshape_in_apply (x : FVec F S3in .f32) (h : S3in.ShapeCasts S2in) (b : Fin 4) (s : Fin 2048) (k : Fin 32768) :
    shapeCast S2in x h (ix2 (rowOf b s) k) = x (ix3 b s k) := by
  refine shapeCast_apply x h _ _ ?_
  rw [Shape.rowMajor_val_three, Shape.rowMajor_val_two]
  show (b.val * 2048 + s.val) * 32768 + k.val = (2048 * b.val + s.val) * 32768 + k.val
  ring

/-- Reshaping to the matrix view, computing row by row, and reshaping back is the result. -/
theorem reshape_rows_reshape (x : FVec F S3in .f32) (h₁ : S3in.ShapeCasts S2in) (h₂ : S2out.ShapeCasts S3out) :
    shapeCast S3out (rows (shapeCast S2in x h₁)) h₂ = out3 x := by
  funext i
  obtain ⟨b, s, j, rfl⟩ : ∃ (b : Fin 4) (s : Fin 2048) (j : Fin 16384), i = ix3 b s j := ⟨i 0, i 1, i 2, eq_ix3 i⟩
  rw [out3_apply]
  refine (shapeCast_apply (rows (shapeCast S2in x h₁)) h₂ (ix3 b s j) (ix2 (rowOf b s) j) ?_).trans ?_
  · rw [Shape.rowMajor_val_two, Shape.rowMajor_val_three]
    show (2048 * b.val + s.val) * 16384 + j.val = (b.val * 2048 + s.val) * 16384 + j.val
    ring
  · rw [rows_apply]
    unfold cell2 cell3
    rw [reshape_in_apply, reshape_in_apply]

end Cert.SiluMul

end
-- ==== Proof.KernelBody.lean ====
/-
  The kernel body at one grid point, as a Hoare triple.

  The body loads its two input staging buffers whole (the gate block g and the up block u, 512 × 2048 each),
  computes (g · logistic g) · u lane by lane, and stores the result over the whole output staging buffer.  So
  from the inputs' buffers at contents x0, x1 and the output's at anything it runs to the inputs' unchanged and
  the output's at the one stored piece over the whole rectangle, which covers the buffer.
-/
import proofs.«119092_j5334349382092_1_alg».proof.Proof.Gen.Kernel.Launch
import proofs.«119092_j5334349382092_1_alg».proof.Proof.Gen.Kernel.Skeleton
import proofs.«119092_j5334349382092_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 512 × 2048 rectangle of a staging buffer: what every load and the store of the body address. -/
abbrev whole : Rect S512x2048 := Rect.unit (s := S512x2048) ![0, 0] S512x2048.size inb_S512x2048_S512x2048_0_0

/-- The output staging buffer after the body, from the two input blocks: its single store, over the whole
    rectangle, of (g · logistic g) · u. -/
def outBlk (x0 : Vec F S512x2048 .f32) (x1 : Vec F S512x2048 .f32) : Vec F S512x2048 .f32 :=
  View.canon [⟨whole, k0_pay1 (View.ld x0 whole) (View.ld x1 whole)⟩]

/-- The one store covers the buffer. -/
theorem outCover (p0 : Vec F S512x2048 .f32) (y : S512x2048.Idx) :
    ∃ pc ∈ ([⟨whole, p0⟩] : List (View.Piece (Elt F) S512x2048 .f32)), y ∈ pc.1.set :=
  View.cover_of_tiled [⟨whole, p0⟩] S512x2048.size (by rfl) y

set_option maxHeartbeats 1000000 in
/-- The body on whole staging memrefs: inputs at x0 and x1, output at anything, to inputs unchanged and the
    output at `outBlk x0 x1`. -/
theorem sound_kernel (c : Dev nD) (E : Set ℕ) (i : grid0.Coords)
    (arg2 : Memref sig .tc .vmem S512x2048 .f32) (harg2 : arg2.IsWhole)
    (arg3 : Memref sig .tc .vmem S512x2048 .f32) (harg3 : arg3.IsWhole)
    (arg4 : Memref sig .tc .vmem S512x2048 .f32) (harg4 : arg4.IsWhole)
    (x0 : Vec F S512x2048 .f32) (x1 : Vec F S512x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlk x0 x1)) -∗ K ⟨⟩))
      ⊢ wp frame (wpE (defs₀ (F := F)) Variants.none c none) E (cc0__silu_mul_kernel i arg2 harg2 arg3 harg3 arg4 harg4) K := by
  simp only [cc0__silu_mul_kernel_eq_skeleton]; unfold cc0__silu_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

end Cert.Kernel.Hand

end
-- ==== Proof.KernelData.lean ====
/-
  The pipeline's proof data and the body obligation.

  The kernel's one pallas_call runs over a 16 × 8 grid.  At point (i, j) window 0 stages block (i, j) of the
  matrix view y : [8192, 32768] (the gate block), window 1 block (i, j + 8) of the SAME array y (the up block),
  and window 2 writes block (i, j) of the result [8192, 16384] back.  Both input windows are fetched at every
  point, so each input staging buffer holds exactly its block when the body runs; the body leaves the inputs as
  they were and the output buffer at `outBlk` of the two blocks.  The two input windows read one array, so each
  holds HALF of that array's share: the left half for the gate window, the right half for the up window.
-/
import proofs.«119092_j5334349382092_1_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core c's buffers at launch, as a valuation; -/
abbrev V₀ (c : Dev nD) : Valuation τ sig (Elt F) := fun b => (s₀ m ρ).mem ((c : Dev nD), b)
/-- and when the region is entered: the reshape to the matrix view has run. -/
abbrev V (c : Dev nD) (b : Ref sig .tc) : Buf (Elt F) ((c : Thread nD τ).loc b) := StableHlo.after hostOps0 (V₀ m ρ c) b

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## The proof data -/

/-- The proof data on core c: the arrays as the region finds them; after the body at point t each input's
    buffer at its block and the output's at `outBlk` of the two input blocks; the invariant the scoped rest and
    the generator register; nothing owed; the gate window holds the left half of the shared array's share, the up
    window the right half. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => outBlk (iblk m ρ c 0 t) (iblk m ρ c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m ρ 0 c).A w = V m ρ c (Pipeline.arrRef spec0 w) := by
  dsimp only [dats]

theorem after0_0 (c : Dev nD) (t : Fin cfg0.N) : (dats m ρ 0 c).after 0 t = iblk m ρ c 0 t := by dsimp only [dats]
theorem after0_1 (c : Dev nD) (t : Fin cfg0.N) : (dats m ρ 0 c).after 1 t = iblk m ρ c 1 t := by dsimp only [dats]
theorem after0_2 (c : Dev nD) (t : Fin cfg0.N) :
    (dats m ρ 0 c).after 2 t = outBlk (iblk m ρ c 0 t) (iblk m ρ c 1 t) := by dsimp only [dats]

/-- The shares: half each for the two windows on the shared array, the output's array outright. -/
theorem share0 (c : Dev nD) : (dats m ρ 0 c).share 0 = fullShare.left := rfl
theorem share1 (c : Dev nD) : (dats m ρ 0 c).share 1 = fullShare.right := rfl
theorem share2 (c : Dev nD) : (dats m ρ 0 c).share 2 = fullShare := rfl

/-- Each input window is fetched at every point, so its current staging buffer holds its block. -/
theorem before0_0 (c : Dev nD) (t : Fin cfg0.N) (d) : (dats m ρ 0 c).before 0 t d = iblk m ρ c 0 t :=
  ((dats m ρ 0 c).before_fetched 0 t (fetch0_0 t) d).trans
    (by unfold Dat.fetched Dat.blockOf iblk; rw [A_eq]; try rfl)
theorem before0_1 (c : Dev nD) (t : Fin cfg0.N) (d) : (dats m ρ 0 c).before 1 t d = iblk m ρ c 1 t :=
  ((dats m ρ 0 c).before_fetched 1 t (fetch0_1 t) d).trans
    (by unfold Dat.fetched Dat.blockOf iblk; rw [A_eq]; try rfl)

/-! ## The body obligation, at a generic point -/

/-- What the body is called with at point t, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t))

/-- The body at any point: the inputs' buffers hold their blocks, so the body's triple applies; the invariant
    and what the core owes pass through unread. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0_0, before0_1]
  rw [show (dats m ρ 0 c).Φ t.succ = (dats m ρ 0 c).Φ t.castSucc from rfl,
    show (dats m ρ 0 c).owesAt () t.succ = (dats m ρ 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m ρ c 0 t) (iblk m ρ c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.Kernel.Hand

end
-- ==== Proof.KernelRun.lean ====
/-
  The launch: every weakly fair execution of the program terminates, and where it ends.

  The program is: reshape the argument to its matrix view y; run the pallas_call; reshape the result back.  It
  is run as three segments.  The first reshape runs over all the core's unscoped buffers, held whole.  At the
  region's entry the buffer of y, held whole, is split into two halves of its share, one for each of the two
  input windows that read it (the gate window and the up window); the result matrix goes to the output window
  outright; the argument and the final result's buffer bypass the region.  At the region's exit both input
  windows still hold y unchanged (an input array is never written), so the two halves join again; the result
  matrix holds what the write-backs left.  The last reshape then runs over all the unscoped buffers again.  At
  the end every unscoped buffer is read off against the final memory.
-/
import proofs.«119092_j5334349382092_1_alg».proof.Proof.KernelData
import Idealize.ShloMosaic.Lib.Pipeline.Regions
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open Idealize.SL.BI (sProp bigSep bigSepL bigSep_eq_bigSepL_of_eq)
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole user algebra. -/
abbrev EP : Emb (UR sig nD τ) (MT nD τ sig Unit (Elt F) ℕ (UR sig nD τ) ℕ) := emb₁

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-! ## The core's unscoped buffers, and the pipeline's arrays, one by one -/

/-- The four unscoped buffers, each whole. -/
theorem unscopedBufs_list (c : Dev nD) (Vr : (b : Ref sig .tc) → Buf (Elt F) ((c : Thread nD τ).loc b)) :
    (unscopedBufs c Vr : sProp 𝕄)
      = iprop((((c : Thread nD τ).loc main_arg0) ↦{fullShare} Vr main_arg0) ∗ (((c : Thread nD τ).loc main_v0) ↦{fullShare} Vr main_v0)
          ∗ (((c : Thread nD τ).loc main_v1) ↦{fullShare} Vr main_v1) ∗ (((c : Thread nD τ).loc main_v2) ↦{fullShare} Vr main_v2)) := by
  unfold unscopedBufs
  exact bigSep_eq_bigSepL_of_eq [main_arg0, main_v0, main_v1, main_v2] (by decide) (by decide) _

/-- The pipeline's arrays: the matrix view twice, at the left and the right half of its share, and the result
    matrix outright. -/
theorem arrays_list (c : Dev nD) (Fa : (w : Fin cfg0.W) → Buf (Elt F) ((cfg0.win w).arr.view.loc (c : Thread nD τ))) :
    ((dats m ρ 0 c).arrays Fa : sProp 𝕄)
      = iprop((((c : Thread nD τ).loc main_v0) ↦{fullShare.left} Fa 0) ∗ (((c : Thread nD τ).loc main_v0) ↦{fullShare.right} Fa 1)
          ∗ (((c : Thread nD τ).loc main_v1) ↦{fullShare} Fa 2)) := by
  have h : ∀ w, (((cfg0.win w).arr.view.loc (c : Thread nD τ)) ↦[(cfg0.win w).arr.view.set]{(dats m ρ 0 c).share w} Fa w : sProp 𝕄)
      = (((c : Thread nD τ).loc (Pipeline.arrRef spec0 w)) ↦{(dats m ρ 0 c).share w} Fa w) := fun w => by
    rw [(arr_whole0 w).set_eq_univ]
  unfold Dat.arrays
  rw [bigSep_W0, h 0, h 1, h 2]
  rfl

/-! ## The segments -/

/-- What rides beside the buffers through the host operations: the generator register at some state and the
    core owing nothing. -/
abbrev R (c : Dev nD) : sProp 𝕄 :=
  iprop((∃ r, prngReg c r) ∗ ∃ W, owes (c : Thread nD τ) (0 : CellTallies nD τ sig Unit) W)

/-- The buffers after the region: the result matrix at what the write-backs left, everything else as the
    region found it. -/
def W1 (c : Dev nD) : Valuation τ sig (Elt F) :=
  Function.update (StableHlo.after hostOps0 (V₀ m ρ c)) (Proc.devRef .tc main_v1) ((dats m ρ 0 c).arrAt 2 cfg0.N)

theorem W1_v1 (c : Dev nD) : W1 m ρ c (Proc.devRef .tc main_v1) = (dats m ρ 0 c).arrAt 2 cfg0.N :=
  Function.update_self ..
theorem W1_arg0 (c : Dev nD) : W1 m ρ c (Proc.devRef .tc main_arg0) = V m ρ c main_arg0 :=
  Function.update_of_ne (StableHlo.devRef_ne_of_ne (by decide)) _ _
theorem W1_v0 (c : Dev nD) : W1 m ρ c (Proc.devRef .tc main_v0) = V m ρ c main_v0 :=
  Function.update_of_ne (StableHlo.devRef_ne_of_ne (by decide)) _ _
theorem W1_v2 (c : Dev nD) : W1 m ρ c (Proc.devRef .tc main_v2) = V m ρ c main_v2 :=
  Function.update_of_ne (StableHlo.devRef_ne_of_ne (by decide)) _ _

/-- The buffers at the end: the last reshape has run. -/
abbrev Wfin (c : Dev nD) : Valuation τ sig (Elt F) := StableHlo.after hostOps1 (W1 m ρ c)

/-- The first reshape, over the unscoped buffers. -/
def seg0 : Pipeline.HostSeg (Name := ℕ) (U := UR sig nD τ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m ρ) R

/-- The last reshape, over the unscoped buffers. -/
def seg1 : Pipeline.HostSeg (Name := ℕ) (U := UR sig nD τ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (W1 m ρ) R

/-- An input array is never written: both windows on the matrix view end holding it as they found it. -/
theorem arrAt_in0 (c : Dev nD) (n : Nat) : (dats m ρ 0 c).arrAt 0 n = V m ρ c main_v0 :=
  ((dats m ρ 0 c).arrAt_in 0 rfl n).trans (A_eq m ρ c 0)
theorem arrAt_in1 (c : Dev nD) (n : Nat) : (dats m ρ 0 c).arrAt 1 n = V m ρ c main_v0 :=
  ((dats m ρ 0 c).arrAt_in 1 rfl n).trans (A_eq m ρ c 1)

set_option backward.isDefEq.respectTransparency.types false in
/-- The region. -/
def reg0 : Pipeline.RegionSeg (pcfgs (F := F)) adm (dats m ρ) () defs₀ Variants.none L lv 0 where
  win := winFacts₀0
  block_pos := block_pos0
  stage_whole := stage_whole0
  K := PEmpty
  osem := fun k => k.elim
  ho := Pipeline.OwnSemFacts.none spec0
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (W1 m ρ c) ∗ R c)
  X c := iprop(∃ r, prngReg c r)
  Y c := iprop(∃ r, prngReg c r)
  Z c := iprop((((c : Thread nD τ).loc main_arg0) ↦{fullShare} V m ρ c main_arg0) ∗ (((c : Thread nD τ).loc main_v2) ↦{fullShare} V m ρ c main_v2))
  hentry c := by
    rw [show StableHlo.held (c : Thread nD τ) (Pipeline.ucRefs τ sig) (StableHlo.after hostOps0 (V₀ m ρ c)) = unscopedBufs c (V m ρ c) from (Pipeline.unscopedBufs_held c _).symm,
      unscopedBufs_list, arrays_list, Pipeline.ownSems0_none]
    iintro ⟨⟨⟨Harg, Hv0, Hv1, Hv2⟩, ⟨Hp, HO⟩⟩, -, -⟩
    ihave Hs := (pointsTo_share (PosShare.mem_left_op_right fullShare)).1 $$ Hv0
    icases Hs with ⟨Hl, Hr⟩
    imodintro
    isplitl [Hl Hr Hv1]
    · isplitl [Hl]; · iexact Hl
      isplitl [Hr]; · iexact Hr
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Harg]; · iexact Harg
    iexact Hv2
  hin c := by
    rw [show (dats m ρ 0 c).Φ 0 = Pipeline.ΦA spec0 c from rfl]; unfold Pipeline.ΦA
    iintro ⟨Hp, -, Hr⟩
    isplitl [Hr] <;> iassumption
  hout c := by
    rw [Pipeline.ownSems0_none, show (dats m ρ 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [show StableHlo.held (c : Thread nD τ) (Pipeline.ucRefs τ sig) (W1 m ρ c) = unscopedBufs c (fun b => W1 m ρ c b) from (Pipeline.unscopedBufs_held c _).symm,
      unscopedBufs_list, arrays_list, arrAt_in0, arrAt_in1, W1_arg0, W1_v0, W1_v1, W1_v2]
    iintro ⟨⟨Hl, Hr, Hv1⟩, HO, HY, ⟨Harg, Hv2⟩⟩
    ihave Hv0 := (pointsTo_share (PosShare.mem_left_op_right fullShare)).2 $$ [Hl Hr]
    · isplitl [Hl] <;> iassumption
    imodintro
    isplitl [Harg Hv0 Hv1 Hv2]
    · isplitl [Harg]; · iexact Harg
      isplitl [Hv0]; · iexact Hv0
      isplitl [Hv1]; · iexact Hv1
      iexact Hv2
    isplitl [HY]; · iexact HY
    unfold Pipeline.Dat.owesAt Pipeline.owesWithin
    icases HO with ⟨%W, -, HO⟩; iexists W; iexact HO

/-- @main as the list of the three. -/
abbrev segs : List (Pipeline.Seg (pcfgs (F := F)) adm (dats m ρ) () defs₀ Variants.none L lv) :=
  [.host (seg0 m ρ), .region (reg0 m ρ), .host (seg1 m ρ)]

/-- What the final memory is read against: every unscoped buffer of the core at the end. -/
def EndAt (c : Dev nD) (s : MemSt nD τ sig (Elt F)) : Prop :=
  ∀ b ∈ Pipeline.ucRefs τ sig, s.mem ((c : Thread nD τ).1, b) = Wfin m ρ c b

set_option backward.isDefEq.respectTransparency.types false in
/-- At the compiled mesh, for any float values, from any memory with zero counters: every weakly fair execution
    of @main on the TensorCores terminates, and every final state has every unscoped buffer at `Wfin`. -/
theorem run_main : θ_run defs (onTc (τ := τ) (main (F := F))) (s₀ m ρ) (fun r => ∀ c : Dev nD, EndAt m ρ c r.2) :=
  Pipeline.θ_run_regions_kit (pcfgs (F := F)) adm (dats m ρ) () cellOf_inj EP defs₀ Variants.none L lv m ρ main (segs m ρ)
    (fun c Q => by rw [main_segs adm (dats m ρ) () Variants.none L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]
      · iapply (show (ownU _ : sProp 𝕄) ⊢ BI.own (EP (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => iprop(StableHlo.held (c : Thread nD τ) (Pipeline.ucRefs τ sig) (Wfin m ρ c) ∗ ∃ r, prngReg c r))
    (hch := ⟨fun _ => .rfl, fun _ => .rfl, fun _ => .rfl, fun c => by
      show iprop(StableHlo.held (c : Thread nD τ) (Pipeline.ucRefs τ sig) (Wfin m ρ c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, Hp, -⟩, -⟩
      imodintro
      isplitl [Hh]; · iexact Hh
      isplitl [Hp]; · iexists _; iexact Hp
      iexists ∅; iexact HO)
    (QY := fun c s => EndAt m ρ c s)
    (hfin := fun c s' => by
      unfold StableHlo.held EndAt
      iintro ⟨⟨Hh, -⟩, HSI⟩
      ihave Hr := (pointsTo_read_all (Pipeline.ucRefs τ sig) (fun b => ((c : Thread nD τ).1, b)) (Wfin m ρ c) s') $$ [Hh HSI]
      · isplitl [Hh] <;> iassumption
      icases Hr with ⟨%ha, HSI⟩
      imodintro
      isplitr; · ipureintro; exact ha
      iexact HSI)
    (hQ := fun _ h => h)

/-! ## Reading the end: the argument, and the final result -/

/-- An unscoped TensorCore reference is among the buffers read at the end. -/
theorem mem_ucRefs (b : Ref sig .tc) (hb : b.isScoped = false) : Proc.devRef .tc b ∈ Pipeline.ucRefs τ sig :=
  Finset.mem_filter.mpr ⟨Finset.mem_map.mpr ⟨b, Finset.mem_univ _, rfl⟩, fun h' => Bool.false_ne_true (hb.symm.trans h')⟩

/-- The first reshape writes the matrix view only: the argument reaches the region as launched. -/
theorem V_arg0 (c : Dev nD) : V m ρ c main_arg0 = m ((c : Thread nD τ).loc main_arg0) :=
  StableHlo.after_of_forall_not_mem (b := Proc.devRef .tc main_arg0) hostOps0 (V₀ m ρ c) (by
    intro op hop
    simp only [List.mem_cons, List.mem_nil_iff, or_false] at hop
    subst hop
    simp only [StableHlo.reshape_writes, Finset.mem_singleton]
    exact StableHlo.devRef_ne_of_ne (by decide))

/-- The last reshape writes the final result only: the argument ends as the region left it, which is as launched. -/
theorem Wfin_arg0 (c : Dev nD) : Wfin m ρ c (Proc.devRef .tc main_arg0) = m ((c : Thread nD τ).loc main_arg0) :=
  (StableHlo.after_of_forall_not_mem (b := Proc.devRef .tc main_arg0) hostOps1 (W1 m ρ c) (by
    intro op hop
    simp only [List.mem_cons, List.mem_nil_iff, or_false] at hop
    subst hop
    simp only [StableHlo.reshape_writes, Finset.mem_singleton]
    exact StableHlo.devRef_ne_of_ne (by decide))).trans ((W1_arg0 m ρ c).trans (V_arg0 m ρ c))

/-- The final result is the row-major reshape of the result matrix as the write-backs left it. -/
theorem Wfin_v2 (c : Dev nD) :
    Wfin m ρ c (Proc.devRef .tc main_v2)
      = shapeCast S4x2048x16384 ((dats m ρ 0 c).arrAt 2 cfg0.N) shapeCasts_S8192x16384_S4x2048x16384 := by
  show (StableHlo.reshape main_v1 main_v2 rfl shapeCasts_S8192x16384_S4x2048x16384 : HloOp τ sig (Elt F)).result (W1 m ρ c) (Proc.devRef .tc main_v2) = _
  rw [StableHlo.reshape_result, W1_v1]
  rfl

theorem end_arg0 (c : Dev nD) (s : MemSt nD τ sig (Elt F)) (h : EndAt m ρ c s) :
    s.mem ((c : Thread nD τ).loc main_arg0) = m ((c : Thread nD τ).loc main_arg0) :=
  (h _ (mem_ucRefs main_arg0 rfl)).trans (Wfin_arg0 m ρ c)

theorem end_v2 (c : Dev nD) (s : MemSt nD τ sig (Elt F)) (h : EndAt m ρ c s) :
    s.mem ((c : Thread nD τ).loc main_v2)
      = shapeCast S4x2048x16384 ((dats m ρ 0 c).arrAt 2 cfg0.N) shapeCasts_S8192x16384_S4x2048x16384 :=
  (h _ (mem_ucRefs main_v2 rfl)).trans (Wfin_v2 m ρ c)

/-- The frame: the program runs to the end and its argument array ends unchanged. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun r h c => end_arg0 m ρ c r.2 (h c)) (run_main m ρ)

end Cert.Kernel.Hand

end
-- ==== Proof.KernelIdealBody.lean ====
/-
  The kernel body at one grid point, as a Hoare triple.

  The body loads its two input staging buffers whole (the gate block g and the up block u, 512 × 2048 each),
  computes (g · logistic g) · u lane by lane, and stores the result over the whole output staging buffer.  So
  from the inputs' buffers at contents x0, x1 and the output's at anything it runs to the inputs' unchanged and
  the output's at the one stored piece over the whole rectangle, which covers the buffer.
-/
import proofs.«119092_j5334349382092_1_alg».proof.Proof.Gen.KernelIdeal.Launch
import proofs.«119092_j5334349382092_1_alg».proof.Proof.Gen.KernelIdeal.Skeleton
import proofs.«119092_j5334349382092_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 512 × 2048 rectangle of a staging buffer: what every load and the store of the body address. -/
abbrev whole : Rect S512x2048 := Rect.unit (s := S512x2048) ![0, 0] S512x2048.size inb_S512x2048_S512x2048_0_0

/-- The output staging buffer after the body, from the two input blocks: its single store, over the whole
    rectangle, of (g · logistic g) · u. -/
def outBlk (x0 : Vec F S512x2048 .f32) (x1 : Vec F S512x2048 .f32) : Vec F S512x2048 .f32 :=
  View.canon [⟨whole, k0_pay1 (View.ld x0 whole) (View.ld x1 whole)⟩]

/-- The one store covers the buffer. -/
theorem outCover (p0 : Vec F S512x2048 .f32) (y : S512x2048.Idx) :
    ∃ pc ∈ ([⟨whole, p0⟩] : List (View.Piece (Elt F) S512x2048 .f32)), y ∈ pc.1.set :=
  View.cover_of_tiled [⟨whole, p0⟩] S512x2048.size (by rfl) y

set_option maxHeartbeats 1000000 in
/-- The body on whole staging memrefs: inputs at x0 and x1, output at anything, to inputs unchanged and the
    output at `outBlk x0 x1`. -/
theorem sound_kernel (c : Dev nD) (E : Set ℕ) (i : grid0.Coords)
    (arg2 : Memref sig .tc .vmem S512x2048 .f32) (harg2 : arg2.IsWhole)
    (arg3 : Memref sig .tc .vmem S512x2048 .f32) (harg3 : arg3.IsWhole)
    (arg4 : Memref sig .tc .vmem S512x2048 .f32) (harg4 : arg4.IsWhole)
    (x0 : Vec F S512x2048 .f32) (x1 : Vec F S512x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlk x0 x1)) -∗ K ⟨⟩))
      ⊢ wp frame (wpE (defs₀ (F := F)) Variants.none c none) E (cc0__silu_mul_kernel i arg2 harg2 arg3 harg3 arg4 harg4) K := by
  simp only [cc0__silu_mul_kernel_eq_skeleton]; unfold cc0__silu_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

end Cert.KernelIdeal.Hand

end
-- ==== Proof.KernelIdealData.lean ====
/-
  The pipeline's proof data and the body obligation.

  The kernel's one pallas_call runs over a 16 × 8 grid.  At point (i, j) window 0 stages block (i, j) of the
  matrix view y : [8192, 32768] (the gate block), window 1 block (i, j + 8) of the SAME array y (the up block),
  and window 2 writes block (i, j) of the result [8192, 16384] back.  Both input windows are fetched at every
  point, so each input staging buffer holds exactly its block when the body runs; the body leaves the inputs as
  they were and the output buffer at `outBlk` of the two blocks.  The two input windows read one array, so each
  holds HALF of that array's share: the left half for the gate window, the right half for the up window.
-/
import proofs.«119092_j5334349382092_1_alg».proof.Proof.KernelIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core c's buffers at launch, as a valuation; -/
abbrev V₀ (c : Dev nD) : Valuation τ sig (Elt F) := fun b => (s₀ m ρ).mem ((c : Dev nD), b)
/-- and when the region is entered: the reshape to the matrix view has run. -/
abbrev V (c : Dev nD) (b : Ref sig .tc) : Buf (Elt F) ((c : Thread nD τ).loc b) := StableHlo.after hostOps0 (V₀ m ρ c) b

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## The proof data -/

/-- The proof data on core c: the arrays as the region finds them; after the body at point t each input's
    buffer at its block and the output's at `outBlk` of the two input blocks; the invariant the scoped rest and
    the generator register; nothing owed; the gate window holds the left half of the shared array's share, the up
    window the right half. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => outBlk (iblk m ρ c 0 t) (iblk m ρ c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m ρ 0 c).A w = V m ρ c (Pipeline.arrRef spec0 w) := by
  dsimp only [dats]

theorem after0_0 (c : Dev nD) (t : Fin cfg0.N) : (dats m ρ 0 c).after 0 t = iblk m ρ c 0 t := by dsimp only [dats]
theorem after0_1 (c : Dev nD) (t : Fin cfg0.N) : (dats m ρ 0 c).after 1 t = iblk m ρ c 1 t := by dsimp only [dats]
theorem after0_2 (c : Dev nD) (t : Fin cfg0.N) :
    (dats m ρ 0 c).after 2 t = outBlk (iblk m ρ c 0 t) (iblk m ρ c 1 t) := by dsimp only [dats]

/-- The shares: half each for the two windows on the shared array, the output's array outright. -/
theorem share0 (c : Dev nD) : (dats m ρ 0 c).share 0 = fullShare.left := rfl
theorem share1 (c : Dev nD) : (dats m ρ 0 c).share 1 = fullShare.right := rfl
theorem share2 (c : Dev nD) : (dats m ρ 0 c).share 2 = fullShare := rfl

/-- Each input window is fetched at every point, so its current staging buffer holds its block. -/
theorem before0_0 (c : Dev nD) (t : Fin cfg0.N) (d) : (dats m ρ 0 c).before 0 t d = iblk m ρ c 0 t :=
  ((dats m ρ 0 c).before_fetched 0 t (fetch0_0 t) d).trans
    (by unfold Dat.fetched Dat.blockOf iblk; rw [A_eq]; try rfl)
theorem before0_1 (c : Dev nD) (t : Fin cfg0.N) (d) : (dats m ρ 0 c).before 1 t d = iblk m ρ c 1 t :=
  ((dats m ρ 0 c).before_fetched 1 t (fetch0_1 t) d).trans
    (by unfold Dat.fetched Dat.blockOf iblk; rw [A_eq]; try rfl)

/-! ## The body obligation, at a generic point -/

/-- What the body is called with at point t, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t))

/-- The body at any point: the inputs' buffers hold their blocks, so the body's triple applies; the invariant
    and what the core owes pass through unread. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0_0, before0_1]
  rw [show (dats m ρ 0 c).Φ t.succ = (dats m ρ 0 c).Φ t.castSucc from rfl,
    show (dats m ρ 0 c).owesAt () t.succ = (dats m ρ 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m ρ c 0 t) (iblk m ρ c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.KernelIdeal.Hand

end
-- ==== Proof.KernelIdealRun.lean ====
/-
  The launch: every weakly fair execution of the program terminates, and where it ends.

  The program is: reshape the argument to its matrix view y; run the pallas_call; reshape the result back.  It
  is run as three segments.  The first reshape runs over all the core's unscoped buffers, held whole.  At the
  region's entry the buffer of y, held whole, is split into two halves of its share, one for each of the two
  input windows that read it (the gate window and the up window); the result matrix goes to the output window
  outright; the argument and the final result's buffer bypass the region.  At the region's exit both input
  windows still hold y unchanged (an input array is never written), so the two halves join again; the result
  matrix holds what the write-backs left.  The last reshape then runs over all the unscoped buffers again.  At
  the end every unscoped buffer is read off against the final memory.
-/
import proofs.«119092_j5334349382092_1_alg».proof.Proof.KernelIdealData
import Idealize.ShloMosaic.Lib.Pipeline.Regions
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open Idealize.SL.BI (sProp bigSep bigSepL bigSep_eq_bigSepL_of_eq)
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole user algebra. -/
abbrev EP : Emb (UR sig nD τ) (MT nD τ sig Unit (Elt F) ℕ (UR sig nD τ) ℕ) := emb₁

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-! ## The core's unscoped buffers, and the pipeline's arrays, one by one -/

/-- The four unscoped buffers, each whole. -/
theorem unscopedBufs_list (c : Dev nD) (Vr : (b : Ref sig .tc) → Buf (Elt F) ((c : Thread nD τ).loc b)) :
    (unscopedBufs c Vr : sProp 𝕄)
      = iprop((((c : Thread nD τ).loc main_arg0) ↦{fullShare} Vr main_arg0) ∗ (((c : Thread nD τ).loc main_v0) ↦{fullShare} Vr main_v0)
          ∗ (((c : Thread nD τ).loc main_v1) ↦{fullShare} Vr main_v1) ∗ (((c : Thread nD τ).loc main_v2) ↦{fullShare} Vr main_v2)) := by
  unfold unscopedBufs
  exact bigSep_eq_bigSepL_of_eq [main_arg0, main_v0, main_v1, main_v2] (by decide) (by decide) _

/-- The pipeline's arrays: the matrix view twice, at the left and the right half of its share, and the result
    matrix outright. -/
theorem arrays_list (c : Dev nD) (Fa : (w : Fin cfg0.W) → Buf (Elt F) ((cfg0.win w).arr.view.loc (c : Thread nD τ))) :
    ((dats m ρ 0 c).arrays Fa : sProp 𝕄)
      = iprop((((c : Thread nD τ).loc main_v0) ↦{fullShare.left} Fa 0) ∗ (((c : Thread nD τ).loc main_v0) ↦{fullShare.right} Fa 1)
          ∗ (((c : Thread nD τ).loc main_v1) ↦{fullShare} Fa 2)) := by
  have h : ∀ w, (((cfg0.win w).arr.view.loc (c : Thread nD τ)) ↦[(cfg0.win w).arr.view.set]{(dats m ρ 0 c).share w} Fa w : sProp 𝕄)
      = (((c : Thread nD τ).loc (Pipeline.arrRef spec0 w)) ↦{(dats m ρ 0 c).share w} Fa w) := fun w => by
    rw [(arr_whole0 w).set_eq_univ]
  unfold Dat.arrays
  rw [bigSep_W0, h 0, h 1, h 2]
  rfl

/-! ## The segments -/

/-- What rides beside the buffers through the host operations: the generator register at some state and the
    core owing nothing. -/
abbrev R (c : Dev nD) : sProp 𝕄 :=
  iprop((∃ r, prngReg c r) ∗ ∃ W, owes (c : Thread nD τ) (0 : CellTallies nD τ sig Unit) W)

/-- The buffers after the region: the result matrix at what the write-backs left, everything else as the
    region found it. -/
def W1 (c : Dev nD) : Valuation τ sig (Elt F) :=
  Function.update (StableHlo.after hostOps0 (V₀ m ρ c)) (Proc.devRef .tc main_v1) ((dats m ρ 0 c).arrAt 2 cfg0.N)

theorem W1_v1 (c : Dev nD) : W1 m ρ c (Proc.devRef .tc main_v1) = (dats m ρ 0 c).arrAt 2 cfg0.N :=
  Function.update_self ..
theorem W1_arg0 (c : Dev nD) : W1 m ρ c (Proc.devRef .tc main_arg0) = V m ρ c main_arg0 :=
  Function.update_of_ne (StableHlo.devRef_ne_of_ne (by decide)) _ _
theorem W1_v0 (c : Dev nD) : W1 m ρ c (Proc.devRef .tc main_v0) = V m ρ c main_v0 :=
  Function.update_of_ne (StableHlo.devRef_ne_of_ne (by decide)) _ _
theorem W1_v2 (c : Dev nD) : W1 m ρ c (Proc.devRef .tc main_v2) = V m ρ c main_v2 :=
  Function.update_of_ne (StableHlo.devRef_ne_of_ne (by decide)) _ _

/-- The buffers at the end: the last reshape has run. -/
abbrev Wfin (c : Dev nD) : Valuation τ sig (Elt F) := StableHlo.after hostOps1 (W1 m ρ c)

/-- The first reshape, over the unscoped buffers. -/
def seg0 : Pipeline.HostSeg (Name := ℕ) (U := UR sig nD τ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m ρ) R

/-- The last reshape, over the unscoped buffers. -/
def seg1 : Pipeline.HostSeg (Name := ℕ) (U := UR sig nD τ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (W1 m ρ) R

/-- An input array is never written: both windows on the matrix view end holding it as they found it. -/
theorem arrAt_in0 (c : Dev nD) (n : Nat) : (dats m ρ 0 c).arrAt 0 n = V m ρ c main_v0 :=
  ((dats m ρ 0 c).arrAt_in 0 rfl n).trans (A_eq m ρ c 0)
theorem arrAt_in1 (c : Dev nD) (n : Nat) : (dats m ρ 0 c).arrAt 1 n = V m ρ c main_v0 :=
  ((dats m ρ 0 c).arrAt_in 1 rfl n).trans (A_eq m ρ c 1)

set_option backward.isDefEq.respectTransparency.types false in
/-- The region. -/
def reg0 : Pipeline.RegionSeg (pcfgs (F := F)) adm (dats m ρ) () defs₀ Variants.none L lv 0 where
  win := winFacts₀0
  block_pos := block_pos0
  stage_whole := stage_whole0
  K := PEmpty
  osem := fun k => k.elim
  ho := Pipeline.OwnSemFacts.none spec0
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (W1 m ρ c) ∗ R c)
  X c := iprop(∃ r, prngReg c r)
  Y c := iprop(∃ r, prngReg c r)
  Z c := iprop((((c : Thread nD τ).loc main_arg0) ↦{fullShare} V m ρ c main_arg0) ∗ (((c : Thread nD τ).loc main_v2) ↦{fullShare} V m ρ c main_v2))
  hentry c := by
    rw [show StableHlo.held (c : Thread nD τ) (Pipeline.ucRefs τ sig) (StableHlo.after hostOps0 (V₀ m ρ c)) = unscopedBufs c (V m ρ c) from (Pipeline.unscopedBufs_held c _).symm,
      unscopedBufs_list, arrays_list, Pipeline.ownSems0_none]
    iintro ⟨⟨⟨Harg, Hv0, Hv1, Hv2⟩, ⟨Hp, HO⟩⟩, -, -⟩
    ihave Hs := (pointsTo_share (PosShare.mem_left_op_right fullShare)).1 $$ Hv0
    icases Hs with ⟨Hl, Hr⟩
    imodintro
    isplitl [Hl Hr Hv1]
    · isplitl [Hl]; · iexact Hl
      isplitl [Hr]; · iexact Hr
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Harg]; · iexact Harg
    iexact Hv2
  hin c := by
    rw [show (dats m ρ 0 c).Φ 0 = Pipeline.ΦA spec0 c from rfl]; unfold Pipeline.ΦA
    iintro ⟨Hp, -, Hr⟩
    isplitl [Hr] <;> iassumption
  hout c := by
    rw [Pipeline.ownSems0_none, show (dats m ρ 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [show StableHlo.held (c : Thread nD τ) (Pipeline.ucRefs τ sig) (W1 m ρ c) = unscopedBufs c (fun b => W1 m ρ c b) from (Pipeline.unscopedBufs_held c _).symm,
      unscopedBufs_list, arrays_list, arrAt_in0, arrAt_in1, W1_arg0, W1_v0, W1_v1, W1_v2]
    iintro ⟨⟨Hl, Hr, Hv1⟩, HO, HY, ⟨Harg, Hv2⟩⟩
    ihave Hv0 := (pointsTo_share (PosShare.mem_left_op_right fullShare)).2 $$ [Hl Hr]
    · isplitl [Hl] <;> iassumption
    imodintro
    isplitl [Harg Hv0 Hv1 Hv2]
    · isplitl [Harg]; · iexact Harg
      isplitl [Hv0]; · iexact Hv0
      isplitl [Hv1]; · iexact Hv1
      iexact Hv2
    isplitl [HY]; · iexact HY
    unfold Pipeline.Dat.owesAt Pipeline.owesWithin
    icases HO with ⟨%W, -, HO⟩; iexists W; iexact HO

/-- @main as the list of the three. -/
abbrev segs : List (Pipeline.Seg (pcfgs (F := F)) adm (dats m ρ) () defs₀ Variants.none L lv) :=
  [.host (seg0 m ρ), .region (reg0 m ρ), .host (seg1 m ρ)]

/-- What the final memory is read against: every unscoped buffer of the core at the end. -/
def EndAt (c : Dev nD) (s : MemSt nD τ sig (Elt F)) : Prop :=
  ∀ b ∈ Pipeline.ucRefs τ sig, s.mem ((c : Thread nD τ).1, b) = Wfin m ρ c b

set_option backward.isDefEq.respectTransparency.types false in
/-- At the compiled mesh, for any float values, from any memory with zero counters: every weakly fair execution
    of @main on the TensorCores terminates, and every final state has every unscoped buffer at `Wfin`. -/
theorem run_main : θ_run defs (onTc (τ := τ) (main (F := F))) (s₀ m ρ) (fun r => ∀ c : Dev nD, EndAt m ρ c r.2) :=
  Pipeline.θ_run_regions_kit (pcfgs (F := F)) adm (dats m ρ) () cellOf_inj EP defs₀ Variants.none L lv m ρ main (segs m ρ)
    (fun c Q => by rw [main_segs adm (dats m ρ) () Variants.none L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]
      · iapply (show (ownU _ : sProp 𝕄) ⊢ BI.own (EP (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => iprop(StableHlo.held (c : Thread nD τ) (Pipeline.ucRefs τ sig) (Wfin m ρ c) ∗ ∃ r, prngReg c r))
    (hch := ⟨fun _ => .rfl, fun _ => .rfl, fun _ => .rfl, fun c => by
      show iprop(StableHlo.held (c : Thread nD τ) (Pipeline.ucRefs τ sig) (Wfin m ρ c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, Hp, -⟩, -⟩
      imodintro
      isplitl [Hh]; · iexact Hh
      isplitl [Hp]; · iexists _; iexact Hp
      iexists ∅; iexact HO)
    (QY := fun c s => EndAt m ρ c s)
    (hfin := fun c s' => by
      unfold StableHlo.held EndAt
      iintro ⟨⟨Hh, -⟩, HSI⟩
      ihave Hr := (pointsTo_read_all (Pipeline.ucRefs τ sig) (fun b => ((c : Thread nD τ).1, b)) (Wfin m ρ c) s') $$ [Hh HSI]
      · isplitl [Hh] <;> iassumption
      icases Hr with ⟨%ha, HSI⟩
      imodintro
      isplitr; · ipureintro; exact ha
      iexact HSI)
    (hQ := fun _ h => h)

/-! ## Reading the end: the argument, and the final result -/

/-- An unscoped TensorCore reference is among the buffers read at the end. -/
theorem mem_ucRefs (b : Ref sig .tc) (hb : b.isScoped = false) : Proc.devRef .tc b ∈ Pipeline.ucRefs τ sig :=
  Finset.mem_filter.mpr ⟨Finset.mem_map.mpr ⟨b, Finset.mem_univ _, rfl⟩, fun h' => Bool.false_ne_true (hb.symm.trans h')⟩

/-- The first reshape writes the matrix view only: the argument reaches the region as launched. -/
theorem V_arg0 (c : Dev nD) : V m ρ c main_arg0 = m ((c : Thread nD τ).loc main_arg0) :=
  StableHlo.after_of_forall_not_mem (b := Proc.devRef .tc main_arg0) hostOps0 (V₀ m ρ c) (by
    intro op hop
    simp only [List.mem_cons, List.mem_nil_iff, or_false] at hop
    subst hop
    simp only [StableHlo.reshape_writes, Finset.mem_singleton]
    exact StableHlo.devRef_ne_of_ne (by decide))

/-- The last reshape writes the final result only: the argument ends as the region left it, which is as launched. -/
theorem Wfin_arg0 (c : Dev nD) : Wfin m ρ c (Proc.devRef .tc main_arg0) = m ((c : Thread nD τ).loc main_arg0) :=
  (StableHlo.after_of_forall_not_mem (b := Proc.devRef .tc main_arg0) hostOps1 (W1 m ρ c) (by
    intro op hop
    simp only [List.mem_cons, List.mem_nil_iff, or_false] at hop
    subst hop
    simp only [StableHlo.reshape_writes, Finset.mem_singleton]
    exact StableHlo.devRef_ne_of_ne (by decide))).trans ((W1_arg0 m ρ c).trans (V_arg0 m ρ c))

/-- The final result is the row-major reshape of the result matrix as the write-backs left it. -/
theorem Wfin_v2 (c : Dev nD) :
    Wfin m ρ c (Proc.devRef .tc main_v2)
      = shapeCast S4x2048x16384 ((dats m ρ 0 c).arrAt 2 cfg0.N) shapeCasts_S8192x16384_S4x2048x16384 := by
  show (StableHlo.reshape main_v1 main_v2 rfl shapeCasts_S8192x16384_S4x2048x16384 : HloOp τ sig (Elt F)).result (W1 m ρ c) (Proc.devRef .tc main_v2) = _
  rw [StableHlo.reshape_result, W1_v1]
  rfl

theorem end_arg0 (c : Dev nD) (s : MemSt nD τ sig (Elt F)) (h : EndAt m ρ c s) :
    s.mem ((c : Thread nD τ).loc main_arg0) = m ((c : Thread nD τ).loc main_arg0) :=
  (h _ (mem_ucRefs main_arg0 rfl)).trans (Wfin_arg0 m ρ c)

theorem end_v2 (c : Dev nD) (s : MemSt nD τ sig (Elt F)) (h : EndAt m ρ c s) :
    s.mem ((c : Thread nD τ).loc main_v2)
      = shapeCast S4x2048x16384 ((dats m ρ 0 c).arrAt 2 cfg0.N) shapeCasts_S8192x16384_S4x2048x16384 :=
  (h _ (mem_ucRefs main_v2 rfl)).trans (Wfin_v2 m ρ c)

/-- The frame: the program runs to the end and its argument array ends unchanged. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun r h c => end_arg0 m ρ c r.2 (h c)) (run_main m ρ)

end Cert.KernelIdeal.Hand

end
-- ==== Proof.KernelIdealValue.lean ====
/-
  What the kernel's result matrix holds after the run.

  Point t = (i, j) of the 16 × 8 grid writes block (i, j) of the result matrix back, and what it writes is, entry
  by entry, (g · logistic g) · u with g read from block (i, j) and u from block (i, j + 8) of the matrix view y:
  entry (512·i + p, 2048·j + q) of the result is computed from y at columns 2048·j + q and 2048·(j + 8) + q =
  2048·j + q + 16384 of row 512·i + p.  The 128 blocks tile the result matrix, so the whole matrix is the one
  function `Cert.SiluMul.rows` of y.
-/
import proofs.«119092_j5334349382092_1_alg».proof.Proof.KernelIdealData
import proofs.«119092_j5334349382092_1_alg».proof.Proof.Spec
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The matrix view when the region is entered is the row-major reshape of the argument. -/
theorem V_main_v0 (c : Dev nD) :
    V m ρ c main_v0 = shapeCast S8192x32768 (m ((c : Thread nD τ).loc main_arg0)) shapeCasts_S4x2048x32768_S8192x32768 := by
  dsimp only [V, hostOps0]
  after_results
  rfl

/-- The reshape before the region does not write the argument. -/
theorem V_main_arg0 (c : Dev nD) : V m ρ c main_arg0 = m ((c : Thread nD τ).loc main_arg0) := by
  refine StableHlo.after_of_forall_not_mem (b := Proc.devRef .tc main_arg0) hostOps0 (V₀ m ρ c) ?_
  intro op hop
  simp only [hostOps0, List.mem_cons, List.mem_nil_iff, or_false] at hop
  subst hop
  simp only [StableHlo.reshape_writes, Finset.mem_singleton]
  exact StableHlo.devRef_ne_of_ne (by decide)

/-! ## One block -/

/-- The whole-buffer rectangle starts at offset zero on both axes. -/
theorem zeroOff : (![0, 0] : Fin 2 → Nat) = fun _ => 0 := funext fun a => by fin_cases a <;> rfl

/-- The body's stored value, entry by entry: (g · logistic g) · u of the two loaded blocks' entries. -/
theorem pay_apply (x0 x1 : Vec F S512x2048 .f32) (j : S512x2048.Idx) :
    k0_pay1 x0 x1 j = Cert.SiluMul.silu1 (x0 j) (x1 j) := by
  unfold k0_pay1
  simp only [shapeCast_self]
  rfl

/-- The block indices of the three windows at a grid point (i, j): the gate window and the result window sit at
    block (i, j), the up window at block (i, j + 8); and i ≤ 15, j ≤ 7. -/
theorem blockIdx : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) + 8
    ∧ win0_2.index t (0 : Fin 2) ≤ 15 ∧ win0_2.index t (1 : Fin 2) ≤ 7 :=
  (by decide +kernel : ∀ t : Fin grid0.N, _)

/-- Every block (q0, q1) of the 16 × 8 tiling of the result matrix is some grid point's. -/
theorem blockOnto : ∀ (q0 : Fin 16) (q1 : Fin 8), ∃ t : Fin cfg0.N, win0_2.index t = ![q0.val, q1.val] :=
  (by decide +kernel : ∀ (q0 : Fin 16) (q1 : Fin 8), ∃ t : Fin grid0.N, win0_2.index t = ![q0.val, q1.val])

/-- What point t writes back is its block of `rows` of the matrix view.  Entry (p, q) of the block sits in the
    result at (512·i + p, 2048·j + q); the gate window's entry (p, q) sits in the view at the same place, which is
    column `gateCol` of that result column, and the up window's at (512·i + p, 2048·(j + 8) + q), which is 16384
    columns to the right: column `upCol`. -/
theorem flushed_rows (c : Dev nD) (t : Fin cfg0.N) :
    (dats m ρ 0 c).flushed 2 t = ((cfg0.win 2).blk t).view.read (Elt F) (Cert.SiluMul.rows (V m ρ c main_v0)) := by
  show (cfg0.win 2).cut (grid0.coords t) ((dats m ρ 0 c).after 2 t) = _
  rw [after0_2]
  unfold outBlk
  rw [View.canon_unit_zero zeroOff]
  simp only [View.ld_unit_zero (S := S512x2048) zeroOff]
  obtain ⟨e0, e1, e2, e3, e4, e5⟩ := blockIdx t
  funext j
  show k0_pay1 (iblk m ρ c 0 t) (iblk m ρ c 1 t) j = Cert.SiluMul.rows (V m ρ c main_v0) (((cfg0.win 2).blk t).view.emb j)
  rw [pay_apply]
  have hj0 : (j 0).val < 512 := (j 0).isLt
  have hj1 : (j 1).val < 2048 := (j 1).isLt
  have hg : ((cfg0.win 0).blk t).view.emb j
      = ix2 ((((cfg0.win 2).blk t).view.emb j) 0) (Cert.SiluMul.gateCol ((((cfg0.win 2).blk t).view.emb j) 1)) := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 2048 + 1 * (j 1).val = win0_2.index t (1 : Fin 2) * 2048 + 1 * (j 1).val; omega
  have hu : ((cfg0.win 1).blk t).view.emb j
      = ix2 ((((cfg0.win 2).blk t).view.emb j) 0) (Cert.SiluMul.upCol ((((cfg0.win 2).blk t).view.emb j) 1)) := by
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 2048 + 1 * (j 1).val = win0_2.index t (1 : Fin 2) * 2048 + 1 * (j 1).val + 16384; omega
  show Cert.SiluMul.silu1 (V m ρ c main_v0 (((cfg0.win 0).blk t).view.emb j)) (V m ρ c main_v0 (((cfg0.win 1).blk t).view.emb j)) = _
  rw [hg, hu]
  rfl

/-! ## The blocks tile the result matrix -/

/-- An index of the result matrix is in point t's block iff on each axis its coordinate is within the block's
    range: from index × size up to index × size + size. -/
theorem mem_block (t : Fin cfg0.N) (i : S8192x16384.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v1).slice (win0_2.rect t)).set ↔ _
  rw [View.set_slice_whole, Rect.mem_set_unit]
  exact Iff.rfl

/-- Every index (r, k) of the result matrix is in a written-back block: block (r / 512, k / 2048). -/
theorem covered (i : S8192x16384.Idx) :
    ∃ t : Fin cfg0.N, (cfg0.win 2).flush t = true ∧ i ∈ ((cfg0.win 2).blk t).view.set := by
  have hi0 : (i 0).val < 8192 := (i 0).isLt
  have hi1 : (i 1).val < 16384 := (i 1).isLt
  obtain ⟨t, ht⟩ := blockOnto ⟨(i 0).val / 512, by omega⟩ ⟨(i 1).val / 2048, by omega⟩
  have q0 : win0_2.index t (0 : Fin 2) = (i 0).val / 512 := congrFun ht 0
  have q1 : win0_2.index t (1 : Fin 2) = (i 1).val / 2048 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-! ## The whole matrix -/

/-- The result matrix after the run is `rows` of the matrix view. -/
theorem final2 (c : Dev nD) : (dats m ρ 0 c).arrAt 2 cfg0.N = Cert.SiluMul.rows (V m ρ c main_v0) :=
  (dats m ρ 0 c).arrAt_eq_of_cover 2 (Cert.SiluMul.rows (V m ρ c main_v0)) (fun t _ => flushed_rows m ρ c t) covered

end Cert.KernelIdeal.Hand

end
-- ==== Proof.RefValue.lean ====
/-
  The reference's run ends with its result array at the function `Cert.SiluMul.out3` of its argument.
-/
import proofs.«119092_j5334349382092_1_alg».proof.Defs
import proofs.«119092_j5334349382092_1_alg».proof.Proof.Gen.ReferenceIdeal.Run
import proofs.«119092_j5334349382092_1_alg».proof.Proof.Gen.ReferenceIdeal.Read
import proofs.«119092_j5334349382092_1_alg».proof.Proof.Spec

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.SiluMul

/-- The pattern of the constant 1.0 denotes the extended real one. -/
theorem ofBits_one : FloatOps.ofBits (F := Ideal) .f32 0x3F800000#32 = (1 : EReal) := by
  rw [Ideal.ofBits_def]
  simp [Ideal.ofBits, Ideal.ieee, -EReal.coe_mul]; norm_num

/-- The first slice reads the argument at the same row and the gate column. -/
theorem idx_gate (b : Fin 4) (s : Fin 2048) (j : Fin 16384) :
    Read.idx_main_v0 (ix3 b s j) = ix3 b s (gateCol j) :=
  funext fun a => Fin.ext (by match a with | ⟨0, _⟩ => rfl | ⟨1, _⟩ => rfl | ⟨2, _⟩ => rfl)

/-- The second slice reads the argument at the same row and the up column, 16384 further right. -/
theorem idx_up (b : Fin 4) (s : Fin 2048) (j : Fin 16384) :
    Read.idx_main_v1 (ix3 b s j) = ix3 b s (upCol j) :=
  funext fun a => Fin.ext (by match a with | ⟨0, _⟩ => rfl | ⟨1, _⟩ => rfl | ⟨2, _⟩ => exact Nat.add_comm _ _)

/-- The reference's composed term is `out3`: entry by entry, g · (1 / (1 + e^(-g))) · u, and 1 / (1 + e^(-g)) is
    the logistic function of g by definition on the extended reals. -/
theorem ref_eq (x0 : (⟨S4x2048x32768, .f32⟩ : BufTy).Contents (Elt Ideal)) :
    Read.val_main_v3 (F := Ideal) x0 = out3 (F := Ideal) x0 := by
  funext i
  obtain ⟨b, s, j, rfl⟩ : ∃ (b : Fin 4) (s : Fin 2048) (j : Fin 16384), i = ix3 b s j := ⟨i 0, i 1, i 2, eq_ix3 i⟩
  rw [out3_apply, Read.val_main_v3_apply, Read.val_main_v2_apply, Read.val_main_call0_v5_apply,
    Read.val_main_call0_v4_apply, Read.val_main_call0_cst_0_apply, Read.val_main_call0_v3_apply,
    Read.val_main_call0_v2_apply, Read.val_main_call0_cst_apply, Read.val_main_call0_v1_apply,
    Read.val_main_call0_v0_apply, Read.val_main_v0_apply, Read.val_main_v1_apply, idx_gate, idx_up, ofBits_one]
  rfl

/-- Every weakly fair execution of the reference ends with its result at `out3` of the argument array, the
    argument unchanged. -/
theorem run_out3 (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = out3 (F := Ideal) (m ((c.tc : Thread nD τ).loc main_arg0))
      ∧ r.2.mem ((c.tc : Thread nD τ).loc main_arg0) = m ((c.tc : Thread nD τ).loc main_arg0)) :=
  (θ_run (defs (F := Ideal)) _ _).mono
    (fun _ h c => ⟨(h c).1.trans (by rw [Read.val_main_v3_eq]; exact ref_eq _), (h c).2⟩)
    (Cert.ReferenceIdeal.Value.run (F := Ideal) m ρ)

end Cert.ReferenceIdeal.RefValue

end
-- ==== Proof.lean ====
/-
  The certificate: silu(gate) · up by a Pallas kernel against its jnp reference.

  Both programs take x : f32[4, 2048, 32768], whose last axis is a gate half and an up half of 16384 columns, and
  return (g · logistic g) · u entry by entry (`Cert.SiluMul.out3`).  The kernel works on the matrix view
  [8192, 32768] of x on a 16 × 8 grid of 512 × 2048 blocks, reading the gate block and the up block through two
  windows on the one array, and its result matrix is `Cert.SiluMul.rows` of the view; reshaped back this is
  `out3 x` (`reshape_rows_reshape`, pure index arithmetic).  The reference slices the two halves and computes
  g · (1 / (1 + e^(-g))) · u on the host, which on the extended reals is the same function because
  1 / (1 + e^(-g)) is the logistic function there by definition and the constant 1.0 denotes one.  No law that
  needs finiteness is used, so the precondition is never opened.  The ideal pass rewrote nothing, so the
  idealization claim is trivial.  The three frames are the runs with everything but the argument dropped.
-/
import proofs.«119092_j5334349382092_1_alg».proof.Defs
import proofs.«119092_j5334349382092_1_alg».proof.Proof.Gen.Kernel
import proofs.«119092_j5334349382092_1_alg».proof.Proof.Gen.KernelIdeal
import proofs.«119092_j5334349382092_1_alg».proof.Proof.Gen.ReferenceIdeal
import proofs.«119092_j5334349382092_1_alg».proof.Proof.Gen.Pre_finite_inputs
import proofs.«119092_j5334349382092_1_alg».proof.Proof.Spec
import proofs.«119092_j5334349382092_1_alg».proof.Proof.KernelRun
import proofs.«119092_j5334349382092_1_alg».proof.Proof.KernelIdealRun
import proofs.«119092_j5334349382092_1_alg».proof.Proof.KernelIdealValue
import proofs.«119092_j5334349382092_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its argument unchanged. -/
theorem frame_kernel : Cert.frame_Kernel := fun m ρ _ => Cert.Kernel.Hand.frame (F := Bits) m ρ

/-- So does the idealized kernel. -/
theorem frame_kernelIdeal : Cert.frame_KernelIdeal := fun m ρ _ => Cert.KernelIdeal.Hand.frame (F := Ideal) m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.RefValue.run_out3 m ρ)

/-- The ideal pass rewrote nothing. -/
theorem preserves : Cert.preserves_Kernel_KernelIdeal := trivial

/-- Both idealized programs end with their result at `out3` of the argument. -/
theorem algebraic : Cert.algebraic_KernelIdeal_ReferenceIdeal := by
  intro m ρ m' ρ' _ hagree
  refine ⟨fun c => Cert.SiluMul.out3 (F := Ideal) (m ((c.tc : Thread Cert.KernelIdeal.nD Cert.KernelIdeal.τ).loc Cert.KernelIdeal.main_arg0)), ?_, ?_⟩
  · refine (θ_run Cert.KernelIdeal.defs _ _).mono
      (fun r h c => ⟨?_, Cert.KernelIdeal.Hand.end_arg0 m ρ c r.2 (h c)⟩) (Cert.KernelIdeal.Hand.run_main (F := Ideal) m ρ)
    rw [Cert.KernelIdeal.Hand.end_v2 m ρ c r.2 (h c), Cert.KernelIdeal.Hand.final2, Cert.KernelIdeal.Hand.V_main_v0]
    exact Cert.SiluMul.reshape_rows_reshape _ _ _
  · refine (θ_run Cert.ReferenceIdeal.defs _ _).mono (fun r h c => ⟨?_, (h c).2⟩)
      (Cert.ReferenceIdeal.RefValue.run_out3 m' ρ')
    rw [(h c).1, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
